-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 512]⟩ ⟨2, ![1, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x512 : Shape := ⟨2, ![1024, 512]⟩
abbrev S1x512 : Shape := ⟨2, ![1, 512]⟩
abbrev S2x1x512 : Shape := ⟨3, ![2, 1, 512]⟩
abbrev S_ : Shape := ⟨0, ![]⟩
abbrev S512 : Shape := ⟨1, ![512]⟩
abbrev S1x1x512 : Shape := ⟨3, ![1, 1, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S2x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v19 : BitVec 32 := Scalar.muli v6 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  v22.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  inb_S2x1x512_S1x1x512_0_0_0 : ∀ a, (![0, 0, 0] : Fin 3 → Nat) a + S1x1x512.size a ≤ S2x1x512.size a
  h_S1x1x512 : 0 < S1x1x512.numel
  shapeCasts_S1x1x512_S1x512 : S1x1x512.ShapeCasts S1x512
  shapeCasts_S1x512_S1x1x512 : S1x512.ShapeCasts S1x1x512
  inb_S2x1x512_S1x1x512_1_0_0 : ∀ a, (![1, 0, 0] : Fin 3 → Nat) a + S1x1x512.size a ≤ S2x1x512.size a
  squeezes_S1x1x512_S1x512 : S1x1x512.Squeezes S1x512
  inb_S1x512_S1x512_0_0 : ∀ a, (![0, 0] : Fin 2 → Nat) a + S1x512.size a ≤ S1x512.size a
  h_S1x512 : 0 < S1x512.numel
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2048x1024_S1024_d0 : S2048x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.Kernel.Protocol.lean ====
/-
  The protocol of the two-device exchange behind the column maximum (the program read at any float instance).

  The mesh is 2 × 2. Device `c` sits at row `c / 2`, column `c % 2`; its PEER is the device in the other row of the
  same column, `(c + 2) % 4`, an involution. Each device holds the block of `x` at its row and column, takes the
  maximum of every column of its block (slot 0 of a two-slot scratch), hands that row of maxima to its peer (into the
  peer's slot 1), and ends with the elementwise maximum of the two slots: the maximum of the whole column.

  Three semaphores per device take part, each with ONE duty in ONE round:
    * the barrier semaphore: one unit, signalled by the peer on entry. With it the peer hands over its slot 1 (the
      landing place of this device's copy) and the fact that it stands at round 0 of its receive semaphore;
    * the send semaphore: the copy's credit, paid once slot 0 has been read; it hands back the half share of slot 0
      that travelled with the copy;
    * the receive semaphore: the copy's credit, paid by the peer once this device's slot 1 holds the peer's row of
      maxima; it hands slot 1 back at those contents.
  A device may wait on its barrier while it still owes its peer's receive semaphore (barriers below receives).
-/
import proofs.«900928_g7700000000000929_dist_max_ax0_xy_m1024_n512_v7x_xy2x2_bf16_1_alg».proof.Proof.Gen.Kernel
import proofs.«900928_g7700000000000929_dist_max_ax0_xy_m1024_n512_v7x_xy2x2_bf16_1_alg».proof.Proof.Gen.Kernel.Skeleton
import proofs.«900928_g7700000000000929_dist_max_ax0_xy_m1024_n512_v7x_xy2x2_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (one duty per round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peer: the other row of the same column -/

def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide

/-- Both device ids the kernel computes, `(1 - row) * 2 + column`, name the peer. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def swap : Dev nD ≃ Dev nD := ⟨peer, peer, peer_peer, peer_peer⟩

/-! ## The memrefs and the cells -/

abbrev xM : Memref sig .tc .vmem S1024x512 .f32 := Memref.whole cc0_stg0_0
abbrev oM : Memref sig .tc .vmem S1x512 .f32 := Memref.whole cc0_stg1_0
abbrev cM : Memref sig .tc .vmem S2x1x512 .f32 := Memref.whole cc0_scratch0

/-- The two slots of the scratch as rectangles of it, -/
abbrev r00 : Rect S2x1x512 := Rect.unit (s := S2x1x512) ![0, 0, 0] S1x1x512.size inb_S2x1x512_S1x1x512_0_0_0
abbrev r10 : Rect S2x1x512 := Rect.unit (s := S2x1x512) ![1, 0, 0] S1x1x512.size inb_S2x1x512_S1x1x512_1_0_0
/-- and as the rows the copy moves: the slot sliced out and its leading axis dropped. -/
abbrev slot0 : Memref sig .tc .vmem S1x512 .f32 := (cM.slice r00 (fun _ => rfl)).squeeze S1x512 squeezes_S1x1x512_S1x512
abbrev slot1 : Memref sig .tc .vmem S1x512 .f32 := (cM.slice r10 (fun _ => rfl)).squeeze S1x512 squeezes_S1x1x512_S1x512

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch indexes them: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one row's copy. -/
abbrev N : ℕ := (slot1 : Memref sig .tc .vmem S1x512 .f32).view.dmaCredit
theorem N_pos : 0 < N := View.dmaCredit_pos _ (by decide)

/-! ## The two slots as sets of elements of the scratch -/

abbrev scrLoc (c : Dev nD) : Loc nD τ sig := (cM : Memref sig .tc .vmem S2x1x512 .f32).view.loc (c : Thread nD τ)

theorem slot0_set : (slot0 : Memref sig .tc .vmem S1x512 .f32).view.set = r00.set := by
  simp only [Memref.view_squeeze, Memref.view_slice, Memref.view_whole, View.set_reshape, View.set_slice_whole]
theorem slot1_set : (slot1 : Memref sig .tc .vmem S1x512 .f32).view.set = r10.set := by
  simp only [Memref.view_squeeze, Memref.view_slice, Memref.view_whole, View.set_reshape, View.set_slice_whole]

theorem slots_disjoint : Disjoint r00.set r10.set :=
  Rect.unit_disjoint (0 : Fin 3) (Or.inl (by decide))

theorem slots_cover : r00.set ∪ r10.set = Finset.univ := by
  ext i
  simp only [Finset.mem_union, Rect.mem_set_unit, Finset.mem_univ, iff_true]
  have h0 : (i 0 : ℕ) < 2 := (i 0).isLt
  have h1 : (i 1 : ℕ) < 1 := (i 1).isLt
  have h2 : (i 2 : ℕ) < 512 := (i 2).isLt
  by_cases h : (i 0 : ℕ) = 0
  · left; intro a; fin_cases a <;> simp [h] <;> omega
  · right; intro a; fin_cases a <;> simp <;> omega

/-! ## Contents -/

/-- Device `c`'s block of `x`, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- The maxima of the columns of device `c`'s block: the row the kernel stores in slot 0. -/
def rowmax (c : Dev nD) : FVec F S1x1x512 .f32 := k0_pay2 (xstg m ρ c)

/-- The kernel's result on device `c`: the elementwise maximum of its own row of maxima and its peer's. -/
def outAt (c : Dev nD) : (cc0_stg1_0 : Ref sig .tc).ty.Contents (Elt F) := k0_pay1 (rowmax m ρ c) (rowmax m ρ (peer c))

/-- The scratch's contents, -/
abbrev Scr (F : FTy → Type) : Type := (cc0_scratch0 : Ref sig .tc).ty.Contents (Elt F)
/-- and what a load of slot 0, of slot 1, reads of them. -/
def rd0 (f : Scr F) : Vec F S1x1x512 .f32 := (cM : Memref sig .tc .vmem S2x1x512 .f32).view.readAt (Elt F) r00.toLoadRect f
def rd1 (f : Scr F) : Vec F S1x1x512 .f32 := (cM : Memref sig .tc .vmem S2x1x512 .f32).view.readAt (Elt F) r10.toLoadRect f

omit [FloatOps F] in
/-- A view re-indexed to another shape and written everywhere, read through the view itself: the payload at the
    matching index. -/
theorem read_write_reshape {sig : RefSig} {κ : Kind} {sp : Space} {s s' : Shape} {e : EltTy} (Val : EltTy → Type)
    (v : View sig κ sp s e) (h : s'.numel = s.numel) (fd : v.ty.Contents Val) (w : s'.Idx → Val e) :
    v.read Val ((v.reshape s' h).write Val fd w Finset.univ) = fun y => w ((Shape.reshapeEquiv h).symm y) := by
  funext y
  have e1 : v.emb y = (v.reshape s' h).emb ((Shape.reshapeEquiv h).symm y) := by
    rw [View.emb_reshape]; simp
  rw [View.read_apply, e1, View.write_emb_of_mem _ _ (Finset.mem_univ _), cast_cast, cast_eq]

/-- What lands in slot 1 from a peer's slot 0 reads back, as slot 1, what the peer's slot 0 read. -/
theorem landing_read (fd fs : Scr F) :
    rd1 ((slot1 : Memref sig .tc .vmem S1x512 .f32).view.write (Elt F) fd ((slot0 : Memref sig .tc .vmem S1x512 .f32).view.read (Elt F) fs) Finset.univ)
      = rd0 fs := by
  refine (read_write_reshape (Elt F) ((cM : Memref sig .tc .vmem S2x1x512 .f32).view.slice r10) squeezes_S1x1x512_S1x512.numel_eq fd
    ((slot0 : Memref sig .tc .vmem S1x512 .f32).view.read (Elt F) fs)).trans ?_
  funext y
  show ((cM : Memref sig .tc .vmem S2x1x512 .f32).view.slice r00).read (Elt F) fs
    (Shape.reshapeEquiv squeezes_S1x1x512_S1x512.numel_eq ((Shape.reshapeEquiv squeezes_S1x1x512_S1x512.numel_eq).symm y)) = _
  rw [Equiv.apply_symm_apply]
  rfl

/-- A store over slot 0 reads back, as slot 0, what was stored. -/
theorem store_read (f : Scr F) (w : Vec F S1x1x512 .f32) :
    rd0 (((cM : Memref sig .tc .vmem S2x1x512 .f32).access r00 : View sig .tc _ _ _).write (Elt F) f w Finset.univ) = w := by
  unfold rd0
  exact View.read_write_univ _ _

/-! ## The points-to pieces -/

/-- Slot `k` of device `c`'s scratch at share `q` and contents `f` (only `f`'s values on the slot matter). -/
def slot0Pts (c : Dev nD) (q : PosShare TreeShare) (f : Scr F) : sProp 𝕄 :=
  (slot0 : Memref sig .tc .vmem S1x512 .f32).view.loc (c : Thread nD τ) ↦[(slot0 : Memref sig .tc .vmem S1x512 .f32).view.set]{q} f
def slot1Pts (c : Dev nD) (f : Scr F) : sProp 𝕄 :=
  (slot1 : Memref sig .tc .vmem S1x512 .f32).view.loc (c : Thread nD τ) ↦[(slot1 : Memref sig .tc .vmem S1x512 .f32).view.set]{fullShare} f
/-- The whole scratch. -/
def scrPts (c : Dev nD) (f : Scr F) : sProp 𝕄 := (scrLoc c ↦{fullShare} f)

omit [FloatOps F] in
instance slot0Pts_storable (c : Dev nD) (q) (f) : BI.Storable (upEmb : UEmb _ 𝕄) (slot0Pts (F := F) c q f) := by unfold slot0Pts; infer_instance
omit [FloatOps F] in
instance slot1Pts_storable (c : Dev nD) (f) : BI.Storable (upEmb : UEmb _ 𝕄) (slot1Pts (F := F) c f) := by unfold slot1Pts; infer_instance

omit [FloatOps F] in
/-- The whole scratch is its two slots. -/
theorem scr_split (c : Dev nD) (f : Scr F) : scrPts c f ⊣⊢ iprop(slot0Pts c fullShare f ∗ slot1Pts c f) := by
  unfold scrPts slot0Pts slot1Pts
  rw [slot0_set, slot1_set]
  have h := pointsTo_union (nD := nD) (τ := τ) (sig := sig) (Ix := Unit) (Val := Elt F) (Name := ℕ) (U := UU) (Lvl := ℕ)
    (ℓ := scrLoc c) (q := fullShare) (f := f) slots_disjoint
  rw [slots_cover] at h
  exact h

/-! ## The schedule: one round, one duty on each of a device's three cells -/

/-- What the peer's signal hands `c`: the peer's slot 1 — where `c`'s copy lands — at some contents, and that the peer
    stands at round 0 of its receive cell. -/
def barPay (c : Dev nD) : sProp 𝕄 := iprop((∃ f, slot1Pts (peer c) f) ∗ reached ER (recvCell (peer c)) 0)
/-- What the peer's copy hands `c` when it has landed: `c`'s slot 1 back, reading the peer's row of maxima. -/
def recvPay (c : Dev nD) : sProp 𝕄 := iprop(∃ f, ⌜rd1 f = rowmax m ρ (peer c)⌝ ∗ slot1Pts c f)
/-- What `c`'s own copy hands back once slot 0 has been read: the half of slot 0 that travelled with it. -/
def sendPay (c : Dev nD) : sProp 𝕄 := iprop(∃ f, slot0Pts c fullShare.right f)

abbrev IsCell (g : GSem nD τ sig) : Prop :=
  g.1.2 = .tc ∧ (g.2 = .reg barS ∨ g.2 = .dma sendS.sem ∨ g.2 = .dma recvS.sem)

def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by
  dsimp only [sched]; exact if_pos ⟨rfl, rfl, .inl rfl⟩
theorem duties_send : (sched (F := F) m ρ).duties (sendCell c) 0 = {()} := by
  dsimp only [sched]; exact if_pos ⟨rfl, rfl, .inr (.inl rfl)⟩
theorem duties_recv : (sched (F := F) m ρ).duties (recvCell c) 0 = {()} := by
  dsimp only [sched]; exact if_pos ⟨rfl, rfl, .inr (.inr rfl)⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

/-- The whole of each cell's round, no duty taken yet, is its one payload. -/
theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels -/

/-- Device `c` owes its peer's receive cell the copy's credit and its peer's barrier cell one unit — summed so that
    the signal, which comes first, peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging or send semaphore (level 0) is below everything a device can owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its peer's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.Kernel.Hand

end
-- ==== Proof.Kernel.Body.lean ====
/-
  One device's run of the kernel body, at any float instance, from what the launch deals it.

  In program order: the device signals its peer's barrier (handing over its slot 1, where the peer's copy will land);
  loads its block of `x`, and stores the maxima of the block's columns into slot 0; waits on its own barrier (taking the
  peer's slot 1); copies its slot 0 into the peer's slot 1, one half share of slot 0 travelling with the copy; waits for
  the peer's copy to land in its own slot 1, which then reads the peer's maxima; loads both slots — slot 0 through the
  half share it kept —, stores their elementwise maximum as the result; and waits until its copy has read slot 0, when
  the travelling half comes back and the scratch is whole again.
-/
import proofs.«900928_g7700000000000929_dist_max_ax0_xy_m1024_n512_v7x_xy2x2_bf16_1_alg».proof.Proof.Kernel.Protocol

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three,
    its peer's barrier cell (its signal) and its peer's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The exchange's ghost state device `c` starts from: the invariants; its positions at round 0 of its three cells; the
    reached-marks of the cells it pays and of its own send and receive cells; the three duty tokens it pays with — its
    peer's barrier duty, its peer's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, scrPts c f)
/-- After the point: the scratch whole again, the two OWN cells at zero, closed (the barrier cell is the runtime's). -/
def Φ₁ (c : Dev nD) : sProp 𝕄 := iprop((∃ f, scrPts (F := F) c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

abbrev rx : Rect S1024x512 := Rect.unit (s := S1024x512) ![0, 0] S1024x512.size inb_S1024x512_S1024x512_0_0
abbrev ro : Rect S1x512 := Rect.unit (s := S1x512) ![0, 0] S1x512.size inb_S1x512_S1x512_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) rx.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S1x512 .f32).access ro : View sig .tc _ _ _).write (Elt F) f w Finset.univ = w :=
  Memref.write_access_unit_zero_univ (Elt F) cc0_stg1_0 hz _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

omit [FloatOps F] in
/-- The elements a load of slot 0 reads, and those a store over slot 0 writes, are the slot's; likewise slot 1's. -/
theorem load0_sub : (cM : Memref sig .tc .vmem S2x1x512 .f32).view.setOn r00.toLoadRect.set ⊆ (slot0 : Memref sig .tc .vmem S1x512 .f32).view.set := by
  rw [slot0_set]; intro i hi
  obtain ⟨a, ha, rfl⟩ := Finset.mem_map.mp hi
  exact ha
omit [FloatOps F] in
theorem load1_sub : (cM : Memref sig .tc .vmem S2x1x512 .f32).view.setOn r10.toLoadRect.set ⊆ (slot1 : Memref sig .tc .vmem S1x512 .f32).view.set := by
  rw [slot1_set]; intro i hi
  obtain ⟨a, ha, rfl⟩ := Finset.mem_map.mp hi
  exact ha
omit [FloatOps F] in
theorem store0_sub : ((cM : Memref sig .tc .vmem S2x1x512 .f32).access r00 : View sig .tc _ _ _).setOn Finset.univ ⊆ (slot0 : Memref sig .tc .vmem S1x512 .f32).view.set := by
  rw [slot0_set, View.setOn_univ]
  show ((View.whole cc0_scratch0).slice r00).set ⊆ _
  rw [View.set_slice_whole]

omit [FloatOps F] in
/-- Two halves of slot 0, held at whatever contents, are slot 0 whole at the first's: holders agree where they overlap. -/
theorem slot0_rejoin (c : Dev nD) (f g : Scr F) :
    iprop(slot0Pts c fullShare.left f ∗ slot0Pts c fullShare.right g) ⊢ (slot0Pts c fullShare f : sProp 𝕄) := by
  unfold slot0Pts
  iintro ⟨HL, HR⟩
  ihave H := (persistent_entails_right pointsTo_agree) $$ [HL HR]
  · isplitl [HL] <;> iassumption
  icases H with ⟨%hag, HL, HR⟩
  ihave HR' := (Entails.of_eq (pointsTo_congr (g := f) (fun i hi => ((hag i (Finset.mem_inter.mpr ⟨hi, hi⟩)).1).symm))) $$ HR
  iapply (pointsTo_share (PosShare.mem_left_op_right fullShare)).2
  isplitl [HL] <;> iassumption

omit [FloatOps F] in
/-- The two slots, each whole at whatever contents, are the scratch whole at some contents. -/
theorem scr_join (c : Dev nD) (f g : Scr F) :
    iprop(slot0Pts c fullShare f ∗ slot1Pts c g) ⊢ (iprop(∃ h, scrPts c h) : sProp 𝕄) := by
  unfold slot0Pts slot1Pts scrPts
  rw [slot0_set, slot1_set]
  iintro H
  ihave H' := (pointsTo_join slots_disjoint) $$ H
  rw [slots_cover]
  iexists _; iexact H'

/-- The copy of slot 0 into the peer's slot 1, the transfer addressed to `n = peer c` (substituted, not rewritten):
    half of slot 0 travels with it; what lands reads the sender's row of maxima. -/
theorem wp_send_peer (c n : Dev nD) (hn : n = peer c) {hsc : (slot1 : Memref sig (Dev.tc n : Thread nD τ).2.kind .vmem S1x512 .f32).view.ref.isScScratch = false}
    {hsrc : (slot0 : Memref sig .tc .vmem S1x512 .f32).view.WordExact} {hdst : (slot1 : Memref sig .tc .vmem S1x512 .f32).view.WordExact}
    {hsem : DmaTarget.Typed .vmem (.dma recvS.sem) (.remote (Dev.tc n : Thread nD τ) (slot1 : Memref sig .tc .vmem S1x512 .f32) (.dma sendS.sem) hsc)}
    {α : Type} {Q : α → sProp 𝕄} {k : PUnit → Prog (TpuEff nD τ sig (Elt F) Λ₀ .tc) α}
    (fs fn : Scr F) (hfs : rd0 fs = rowmax m ρ c) (W : Waits sig Unit) :
    iprop(cellInv ER (sched m ρ) (K (c, 1)) (sendCell c) ∗ cellInv ER (sched m ρ) (K (peer c, 2)) (recvCell (peer c))
        ∗ slot0Pts c fullShare.right fs ∗ slot1Pts (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma sendS.sem) hsc) (.dma recvS.sem) hsrc hdst hsem) k) Q) := by
  subst hn
  unfold slot0Pts slot1Pts
  exact Rounds.wp_send_pointsTo 𝒱₀ ER (sched m ρ) (c : Thread nD τ) none (c' := (peer c : Thread nD τ))
    (src := (slot0 : Memref sig .tc .vmem S1x512 .f32)) (dst := (slot1 : Memref sig .tc .vmem S1x512 .f32))
    (sS := .dma sendS.sem) (sem := .dma recvS.sem) (q := fullShare.right) (κ₁ := K (c, 1)) (κ₂ := K (peer c, 2))
    (r₁ := 0) (r₂ := 0) (d₁ := ()) (d₂ := ()) (fs := fs) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; unfold sendPay slot0Pts; iintro H; iexists fs; iexact H)
    (by
      rw [payload_recv]; unfold recvPay slot1Pts
      iintro H
      iexists ((slot1 : Memref sig .tc .vmem S1x512 .f32).view.write (Elt F) fn ((slot0 : Memref sig .tc .vmem S1x512 .f32).view.read (Elt F) fs) Finset.univ)
      isplitr
      · ipureintro; rw [landing_read, hfs, peer_peer]
      · iexact H)

set_option maxHeartbeats 800000 in
/-- The body from `bodyPre` to `bodyPost`, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  unfold O₀
  -- the scratch in its two slots; the SIGNAL to the peer's barrier, slot 1 going with it
  ihave Hsp := (scr_split c f0).1 $$ Hscr
  icases Hsp with ⟨Hs0, Hs1⟩
  iapply (Rounds.wp_signal 𝒱₀ ER (sched m ρ) (c : Thread nD τ) none (dst := (peer c : Thread nD τ)) (κ := K (peer c, 0))
      (d := ()) (by rw [duties_bar]; exact Finset.mem_singleton_self _) ((amount_bar m ρ (peer c) ()).trans (by decide)) () (tallyAt (recvCell (peer c)) () N) rfl)
    $$ [HO HtBP Hs1]
  · isplitr; · iexact HIbarP
    isplitl [HO]; · iexact HO
    isplitl [HtBP]; · iexact HtBP
    isplitl [Hs1]
    · rw [payload_bar]; unfold barPay; rw [peer_peer]
      isplitl [Hs1]; · iexists f0; iexact Hs1
      iexact HrV
    · iexact HrBP
  iintro HO
  -- the block of `x`; slot 0 read (the value is not used) and then stored with the block's column maxima
  iapply (wp_load 𝒱₀ (c : Thread nD τ) none Set.univ (m := xM) (Finset.subset_univ _)) $$ Hx; iintro Hx
  rw [read_x]
  unfold slot0Pts
  iapply (wp_load 𝒱₀ (c : Thread nD τ) none Set.univ (m := cM) (r := r00.toLoadRect) load0_sub) $$ Hs0; iintro Hs0
  iapply (wp_store 𝒱₀ (c : Thread nD τ) none Set.univ (m := cM) (r := r00) (Mk := Finset.univ) store0_sub) $$ Hs0; iintro Hs0
  -- the WAIT on its own barrier, owing the peer's receive credit: the peer's slot 1 comes with it
  iapply (Rounds.wp_wait_rest_token 𝒱₀ ER (sched m ρ) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HscrN⟩, #HrVP'⟩
  -- slot 0 in two halves: one travels with the COPY into the peer's slot 1, one stays for the load
  ihave Hh := (pointsTo_share (PosShare.mem_left_op_right fullShare)).1 $$ Hs0
  icases Hh with ⟨Hs0L, Hs0R⟩
  iapply (wp_send_peer m ρ K c _ (dev2_eq c) _ fn (store_read f0 (k0_pay2 (xstg m ρ c)))
      (insert (SemLoc.reg barS, ()) W)) $$ [Hs0R HscrN HO HtS HtVP]
  · isplitr; · iexact HIsnd
    isplitr; · iexact HIrcvP
    isplitl [Hs0R]; · unfold slot0Pts; iexact Hs0R
    isplitl [HscrN]; · iexact HscrN
    isplitl [HO]; · iexact HO
    isplitl [HtS]; · iexact HtS
    isplitr; · iexact HrS
    isplitl [HtVP]; · iexact HtVP
    iexact HrVP
  iintro ⟨HcS, HO⟩
  -- the wait on its RECEIVE cell: slot 1 back, reading the peer's row of maxima
  iapply (Rounds.wp_wait_rest_token 𝒱₀ ER (sched m ρ) (c : Thread nD τ) none (κ := K (c, 2))
      (wpE_waitDma2_eq 𝒱₀ (c : Thread nD τ) none Set.univ) (Set.mem_univ _) () (O := 0)
      (W := insert (SemLoc.reg barS, ()) W) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hrp := (Entails.of_eq (rest_recv m ρ c)) $$ Hpay
  unfold recvPay
  icases Hrp with ⟨%f2, %hf2, Hs1⟩
  -- the loads of the two slots and the store of their elementwise maximum
  iapply (wp_load 𝒱₀ (c : Thread nD τ) none Set.univ (m := cM) (r := r00.toLoadRect) load0_sub) $$ Hs0L; iintro Hs0L
  unfold slot1Pts
  iapply (wp_load 𝒱₀ (c : Thread nD τ) none Set.univ (m := cM) (r := r10.toLoadRect) load1_sub) $$ Hs1; iintro Hs1
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out]
  have e0 : (cM : Memref sig .tc .vmem S2x1x512 .f32).view.readAt (Elt F) r00.toLoadRect
      (((cM : Memref sig .tc .vmem S2x1x512 .f32).access r00 : View sig .tc _ _ _).write (Elt F) f0 (k0_pay2 (xstg m ρ c)) Finset.univ)
      = rowmax m ρ c := store_read f0 _
  have e1 : (cM : Memref sig .tc .vmem S2x1x512 .f32).view.readAt (Elt F) r10.toLoadRect f2 = rowmax m ρ (peer c) := hf2
  rw [e0, e1]
  -- the wait on its SEND cell: the travelling half of slot 0 comes back
  iapply (Rounds.wp_wait_rest_token 𝒱₀ ER (sched m ρ) (c : Thread nD τ) none (κ := K (c, 1))
      (wpE_waitDma2_eq 𝒱₀ (c : Thread nD τ) none Set.univ) (Set.mem_univ _) () (O := 0)
      (W := insert (SemLoc.dma recvS.sem, ()) (insert (SemLoc.reg barS, ()) W)) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hsp := (Entails.of_eq (rest_send m ρ c)) $$ Hpay
  unfold sendPay
  icases Hsp with ⟨%f3, Hs0R⟩
  -- the scratch whole again
  ihave Hs0 := (slot0_rejoin c _ f3) $$ [Hs0L Hs0R]
  · isplitl [Hs0L]; · unfold slot0Pts; iexact Hs0L
    iexact Hs0R
  ihave Hscr := (scr_join c _ f2) $$ [Hs0 Hs1]
  · isplitl [Hs0]; · iexact Hs0
    unfold slot1Pts; iexact Hs1
  -- the two own cells close: their counters at zero are the core's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  rw [wp_ret]; imodintro
  iapply Hk
  unfold bodyPost Φ₁ Dat.owesAt Pipeline.owesWithin
  rw [show (dats m ρ 0 c).owed t₀.succ = 0 from rfl]
  isplitl [Hscr HzS HzV]
  · isplitl [Hscr]; · iexact Hscr
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

end Body

end Cert.Kernel.Hand

end
-- ==== Proof.Kernel.Launch.lean ====
/-
  The launch of the exchange on the four devices, at any float instance: from a memory with every semaphore at zero,
  the exchange's ghost state is made once for all devices (each device's three cells opened at round 0, the duty tokens
  dealt to the devices that pay them: a barrier's and a receive cell's token to the peer, a send cell's to its owner),
  each device is given credit for what the others owe its cells (one barrier unit and one copy's credit, both from its
  peer), and the body's proof on every device gives the run: it terminates on every fair schedule, nothing faults, and
  each device's arrays end at the contents the proof data names.
-/
import proofs.«900928_g7700000000000929_dist_max_ax0_xy_m1024_n512_v7x_xy2x2_bf16_1_alg».proof.Proof.Kernel.Body
import proofs.«900928_g7700000000000929_dist_max_ax0_xy_m1024_n512_v7x_xy2x2_bf16_1_alg».proof.Proof.Gen.Kernel.Points

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation, in the library's form -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exCells : Finset (GSem nD τ sig) := Finset.univ.map ⟨kcell, kcell_injective⟩

/-- A device's own cells' duty tokens as minted: (device, which cell) — its barrier's, its send's, its receive's. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin3]; rfl
  iintro HX
  imod (Rounds.fund ER (sched m ρ) exCells exToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks (F := F) c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across: a barrier's and a receive cell's token to the peer, the send cell's stays. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_across (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s peer. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold scrPts; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hr⟩, HzS, HzV⟩
  isplitr; · iempintro
  isplitl [HzS HzV]
  · isplitl [HzS] <;> iassumption
  iexists f; unfold scrPts; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's result array at the contents the proof data
    computes and its block of `x` at what it held. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Hand.run_main' depends on axioms: [propext, Classical.choice, Quot.sound] -/
#guard_msgs in #print axioms run_main

/-- The block of `x` after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The staged block of `x` is the argument buffer itself: the window is the whole array. -/
theorem xstg_eq (c : Dev nD) : xstg m ρ c = m ((c : Thread nD τ).loc main_arg0) := by
  unfold xstg
  exact Memref.read_access_unit_zero (Elt F) main_arg0 (off := fun a => (win0_0.index (0 : Fin 1) a) * win0_0.size a)
    (funext fun a => Nat.zero_mul _) _ _

/-- The result array after the run holds the elementwise maximum of the device's row of maxima and its peer's: the one
    point writes the whole result back. -/
theorem finalA_out (c : Dev nD) : finalA m ρ c (1 : Fin 2) = outAt m ρ c := by
  unfold finalA
  rw [show cfg0.N = (t₀ : Fin cfg0.N).val + 1 from rfl, Dat.arrAt_succ, if_pos (flush0_1 t₀)]
  exact Memref.write_access_unit_zero_univ (Elt F) main_v1 (off := fun a => (win0_1.index (0 : Fin 1) a) * win0_1.size a)
    (funext fun a => Nat.zero_mul _) _ _ _

end Cert.Kernel.Hand

end
-- ==== Proof.KernelIdeal.Protocol.lean ====
/-
  The protocol of the two-device exchange behind the column maximum (the program read at any float instance).

  The mesh is 2 × 2. Device `c` sits at row `c / 2`, column `c % 2`; its PEER is the device in the other row of the
  same column, `(c + 2) % 4`, an involution. Each device holds the block of `x` at its row and column, takes the
  maximum of every column of its block (slot 0 of a two-slot scratch), hands that row of maxima to its peer (into the
  peer's slot 1), and ends with the elementwise maximum of the two slots: the maximum of the whole column.

  Three semaphores per device take part, each with ONE duty in ONE round:
    * the barrier semaphore: one unit, signalled by the peer on entry. With it the peer hands over its slot 1 (the
      landing place of this device's copy) and the fact that it stands at round 0 of its receive semaphore;
    * the send semaphore: the copy's credit, paid once slot 0 has been read; it hands back the half share of slot 0
      that travelled with the copy;
    * the receive semaphore: the copy's credit, paid by the peer once this device's slot 1 holds the peer's row of
      maxima; it hands slot 1 back at those contents.
  A device may wait on its barrier while it still owes its peer's receive semaphore (barriers below receives).
-/
import proofs.«900928_g7700000000000929_dist_max_ax0_xy_m1024_n512_v7x_xy2x2_bf16_1_alg».proof.Proof.Gen.KernelIdeal
import proofs.«900928_g7700000000000929_dist_max_ax0_xy_m1024_n512_v7x_xy2x2_bf16_1_alg».proof.Proof.Gen.KernelIdeal.Skeleton
import proofs.«900928_g7700000000000929_dist_max_ax0_xy_m1024_n512_v7x_xy2x2_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (one duty per round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peer: the other row of the same column -/

def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide

/-- Both device ids the kernel computes, `(1 - row) * 2 + column`, name the peer. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def swap : Dev nD ≃ Dev nD := ⟨peer, peer, peer_peer, peer_peer⟩

/-! ## The memrefs and the cells -/

abbrev xM : Memref sig .tc .vmem S1024x512 .f32 := Memref.whole cc0_stg0_0
abbrev oM : Memref sig .tc .vmem S1x512 .f32 := Memref.whole cc0_stg1_0
abbrev cM : Memref sig .tc .vmem S2x1x512 .f32 := Memref.whole cc0_scratch0

/-- The two slots of the scratch as rectangles of it, -/
abbrev r00 : Rect S2x1x512 := Rect.unit (s := S2x1x512) ![0, 0, 0] S1x1x512.size inb_S2x1x512_S1x1x512_0_0_0
abbrev r10 : Rect S2x1x512 := Rect.unit (s := S2x1x512) ![1, 0, 0] S1x1x512.size inb_S2x1x512_S1x1x512_1_0_0
/-- and as the rows the copy moves: the slot sliced out and its leading axis dropped. -/
abbrev slot0 : Memref sig .tc .vmem S1x512 .f32 := (cM.slice r00 (fun _ => rfl)).squeeze S1x512 squeezes_S1x1x512_S1x512
abbrev slot1 : Memref sig .tc .vmem S1x512 .f32 := (cM.slice r10 (fun _ => rfl)).squeeze S1x512 squeezes_S1x1x512_S1x512

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch indexes them: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one row's copy. -/
abbrev N : ℕ := (slot1 : Memref sig .tc .vmem S1x512 .f32).view.dmaCredit
theorem N_pos : 0 < N := View.dmaCredit_pos _ (by decide)

/-! ## The two slots as sets of elements of the scratch -/

abbrev scrLoc (c : Dev nD) : Loc nD τ sig := (cM : Memref sig .tc .vmem S2x1x512 .f32).view.loc (c : Thread nD τ)

theorem slot0_set : (slot0 : Memref sig .tc .vmem S1x512 .f32).view.set = r00.set := by
  simp only [Memref.view_squeeze, Memref.view_slice, Memref.view_whole, View.set_reshape, View.set_slice_whole]
theorem slot1_set : (slot1 : Memref sig .tc .vmem S1x512 .f32).view.set = r10.set := by
  simp only [Memref.view_squeeze, Memref.view_slice, Memref.view_whole, View.set_reshape, View.set_slice_whole]

theorem slots_disjoint : Disjoint r00.set r10.set :=
  Rect.unit_disjoint (0 : Fin 3) (Or.inl (by decide))

theorem slots_cover : r00.set ∪ r10.set = Finset.univ := by
  ext i
  simp only [Finset.mem_union, Rect.mem_set_unit, Finset.mem_univ, iff_true]
  have h0 : (i 0 : ℕ) < 2 := (i 0).isLt
  have h1 : (i 1 : ℕ) < 1 := (i 1).isLt
  have h2 : (i 2 : ℕ) < 512 := (i 2).isLt
  by_cases h : (i 0 : ℕ) = 0
  · left; intro a; fin_cases a <;> simp [h] <;> omega
  · right; intro a; fin_cases a <;> simp <;> omega

/-! ## Contents -/

/-- Device `c`'s block of `x`, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- The maxima of the columns of device `c`'s block: the row the kernel stores in slot 0. -/
def rowmax (c : Dev nD) : FVec F S1x1x512 .f32 := k0_pay2 (xstg m ρ c)

/-- The kernel's result on device `c`: the elementwise maximum of its own row of maxima and its peer's. -/
def outAt (c : Dev nD) : (cc0_stg1_0 : Ref sig .tc).ty.Contents (Elt F) := k0_pay1 (rowmax m ρ c) (rowmax m ρ (peer c))

/-- The scratch's contents, -/
abbrev Scr (F : FTy → Type) : Type := (cc0_scratch0 : Ref sig .tc).ty.Contents (Elt F)
/-- and what a load of slot 0, of slot 1, reads of them. -/
def rd0 (f : Scr F) : Vec F S1x1x512 .f32 := (cM : Memref sig .tc .vmem S2x1x512 .f32).view.readAt (Elt F) r00.toLoadRect f
def rd1 (f : Scr F) : Vec F S1x1x512 .f32 := (cM : Memref sig .tc .vmem S2x1x512 .f32).view.readAt (Elt F) r10.toLoadRect f

omit [FloatOps F] in
/-- A view re-indexed to another shape and written everywhere, read through the view itself: the payload at the
    matching index. -/
theorem read_write_reshape {sig : RefSig} {κ : Kind} {sp : Space} {s s' : Shape} {e : EltTy} (Val : EltTy → Type)
    (v : View sig κ sp s e) (h : s'.numel = s.numel) (fd : v.ty.Contents Val) (w : s'.Idx → Val e) :
    v.read Val ((v.reshape s' h).write Val fd w Finset.univ) = fun y => w ((Shape.reshapeEquiv h).symm y) := by
  funext y
  have e1 : v.emb y = (v.reshape s' h).emb ((Shape.reshapeEquiv h).symm y) := by
    rw [View.emb_reshape]; simp
  rw [View.read_apply, e1, View.write_emb_of_mem _ _ (Finset.mem_univ _), cast_cast, cast_eq]

/-- What lands in slot 1 from a peer's slot 0 reads back, as slot 1, what the peer's slot 0 read. -/
theorem landing_read (fd fs : Scr F) :
    rd1 ((slot1 : Memref sig .tc .vmem S1x512 .f32).view.write (Elt F) fd ((slot0 : Memref sig .tc .vmem S1x512 .f32).view.read (Elt F) fs) Finset.univ)
      = rd0 fs := by
  refine (read_write_reshape (Elt F) ((cM : Memref sig .tc .vmem S2x1x512 .f32).view.slice r10) squeezes_S1x1x512_S1x512.numel_eq fd
    ((slot0 : Memref sig .tc .vmem S1x512 .f32).view.read (Elt F) fs)).trans ?_
  funext y
  show ((cM : Memref sig .tc .vmem S2x1x512 .f32).view.slice r00).read (Elt F) fs
    (Shape.reshapeEquiv squeezes_S1x1x512_S1x512.numel_eq ((Shape.reshapeEquiv squeezes_S1x1x512_S1x512.numel_eq).symm y)) = _
  rw [Equiv.apply_symm_apply]
  rfl

/-- A store over slot 0 reads back, as slot 0, what was stored. -/
theorem store_read (f : Scr F) (w : Vec F S1x1x512 .f32) :
    rd0 (((cM : Memref sig .tc .vmem S2x1x512 .f32).access r00 : View sig .tc _ _ _).write (Elt F) f w Finset.univ) = w := by
  unfold rd0
  exact View.read_write_univ _ _

/-! ## The points-to pieces -/

/-- Slot `k` of device `c`'s scratch at share `q` and contents `f` (only `f`'s values on the slot matter). -/
def slot0Pts (c : Dev nD) (q : PosShare TreeShare) (f : Scr F) : sProp 𝕄 :=
  (slot0 : Memref sig .tc .vmem S1x512 .f32).view.loc (c : Thread nD τ) ↦[(slot0 : Memref sig .tc .vmem S1x512 .f32).view.set]{q} f
def slot1Pts (c : Dev nD) (f : Scr F) : sProp 𝕄 :=
  (slot1 : Memref sig .tc .vmem S1x512 .f32).view.loc (c : Thread nD τ) ↦[(slot1 : Memref sig .tc .vmem S1x512 .f32).view.set]{fullShare} f
/-- The whole scratch. -/
def scrPts (c : Dev nD) (f : Scr F) : sProp 𝕄 := (scrLoc c ↦{fullShare} f)

omit [FloatOps F] in
instance slot0Pts_storable (c : Dev nD) (q) (f) : BI.Storable (upEmb : UEmb _ 𝕄) (slot0Pts (F := F) c q f) := by unfold slot0Pts; infer_instance
omit [FloatOps F] in
instance slot1Pts_storable (c : Dev nD) (f) : BI.Storable (upEmb : UEmb _ 𝕄) (slot1Pts (F := F) c f) := by unfold slot1Pts; infer_instance

omit [FloatOps F] in
/-- The whole scratch is its two slots. -/
theorem scr_split (c : Dev nD) (f : Scr F) : scrPts c f ⊣⊢ iprop(slot0Pts c fullShare f ∗ slot1Pts c f) := by
  unfold scrPts slot0Pts slot1Pts
  rw [slot0_set, slot1_set]
  have h := pointsTo_union (nD := nD) (τ := τ) (sig := sig) (Ix := Unit) (Val := Elt F) (Name := ℕ) (U := UU) (Lvl := ℕ)
    (ℓ := scrLoc c) (q := fullShare) (f := f) slots_disjoint
  rw [slots_cover] at h
  exact h

/-! ## The schedule: one round, one duty on each of a device's three cells -/

/-- What the peer's signal hands `c`: the peer's slot 1 — where `c`'s copy lands — at some contents, and that the peer
    stands at round 0 of its receive cell. -/
def barPay (c : Dev nD) : sProp 𝕄 := iprop((∃ f, slot1Pts (peer c) f) ∗ reached ER (recvCell (peer c)) 0)
/-- What the peer's copy hands `c` when it has landed: `c`'s slot 1 back, reading the peer's row of maxima. -/
def recvPay (c : Dev nD) : sProp 𝕄 := iprop(∃ f, ⌜rd1 f = rowmax m ρ (peer c)⌝ ∗ slot1Pts c f)
/-- What `c`'s own copy hands back once slot 0 has been read: the half of slot 0 that travelled with it. -/
def sendPay (c : Dev nD) : sProp 𝕄 := iprop(∃ f, slot0Pts c fullShare.right f)

abbrev IsCell (g : GSem nD τ sig) : Prop :=
  g.1.2 = .tc ∧ (g.2 = .reg barS ∨ g.2 = .dma sendS.sem ∨ g.2 = .dma recvS.sem)

def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by
  dsimp only [sched]; exact if_pos ⟨rfl, rfl, .inl rfl⟩
theorem duties_send : (sched (F := F) m ρ).duties (sendCell c) 0 = {()} := by
  dsimp only [sched]; exact if_pos ⟨rfl, rfl, .inr (.inl rfl)⟩
theorem duties_recv : (sched (F := F) m ρ).duties (recvCell c) 0 = {()} := by
  dsimp only [sched]; exact if_pos ⟨rfl, rfl, .inr (.inr rfl)⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

/-- The whole of each cell's round, no duty taken yet, is its one payload. -/
theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels -/

/-- Device `c` owes its peer's receive cell the copy's credit and its peer's barrier cell one unit — summed so that
    the signal, which comes first, peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging or send semaphore (level 0) is below everything a device can owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its peer's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdeal.Hand

end
-- ==== Proof.KernelIdeal.Body.lean ====
/-
  One device's run of the kernel body, at any float instance, from what the launch deals it.

  In program order: the device signals its peer's barrier (handing over its slot 1, where the peer's copy will land);
  loads its block of `x`, and stores the maxima of the block's columns into slot 0; waits on its own barrier (taking the
  peer's slot 1); copies its slot 0 into the peer's slot 1, one half share of slot 0 travelling with the copy; waits for
  the peer's copy to land in its own slot 1, which then reads the peer's maxima; loads both slots — slot 0 through the
  half share it kept —, stores their elementwise maximum as the result; and waits until its copy has read slot 0, when
  the travelling half comes back and the scratch is whole again.
-/
import proofs.«900928_g7700000000000929_dist_max_ax0_xy_m1024_n512_v7x_xy2x2_bf16_1_alg».proof.Proof.KernelIdeal.Protocol

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three,
    its peer's barrier cell (its signal) and its peer's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The exchange's ghost state device `c` starts from: the invariants; its positions at round 0 of its three cells; the
    reached-marks of the cells it pays and of its own send and receive cells; the three duty tokens it pays with — its
    peer's barrier duty, its peer's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, scrPts c f)
/-- After the point: the scratch whole again, the two OWN cells at zero, closed (the barrier cell is the runtime's). -/
def Φ₁ (c : Dev nD) : sProp 𝕄 := iprop((∃ f, scrPts (F := F) c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

abbrev rx : Rect S1024x512 := Rect.unit (s := S1024x512) ![0, 0] S1024x512.size inb_S1024x512_S1024x512_0_0
abbrev ro : Rect S1x512 := Rect.unit (s := S1x512) ![0, 0] S1x512.size inb_S1x512_S1x512_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) rx.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S1x512 .f32).access ro : View sig .tc _ _ _).write (Elt F) f w Finset.univ = w :=
  Memref.write_access_unit_zero_univ (Elt F) cc0_stg1_0 hz _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

omit [FloatOps F] in
/-- The elements a load of slot 0 reads, and those a store over slot 0 writes, are the slot's; likewise slot 1's. -/
theorem load0_sub : (cM : Memref sig .tc .vmem S2x1x512 .f32).view.setOn r00.toLoadRect.set ⊆ (slot0 : Memref sig .tc .vmem S1x512 .f32).view.set := by
  rw [slot0_set]; intro i hi
  obtain ⟨a, ha, rfl⟩ := Finset.mem_map.mp hi
  exact ha
omit [FloatOps F] in
theorem load1_sub : (cM : Memref sig .tc .vmem S2x1x512 .f32).view.setOn r10.toLoadRect.set ⊆ (slot1 : Memref sig .tc .vmem S1x512 .f32).view.set := by
  rw [slot1_set]; intro i hi
  obtain ⟨a, ha, rfl⟩ := Finset.mem_map.mp hi
  exact ha
omit [FloatOps F] in
theorem store0_sub : ((cM : Memref sig .tc .vmem S2x1x512 .f32).access r00 : View sig .tc _ _ _).setOn Finset.univ ⊆ (slot0 : Memref sig .tc .vmem S1x512 .f32).view.set := by
  rw [slot0_set, View.setOn_univ]
  show ((View.whole cc0_scratch0).slice r00).set ⊆ _
  rw [View.set_slice_whole]

omit [FloatOps F] in
/-- Two halves of slot 0, held at whatever contents, are slot 0 whole at the first's: holders agree where they overlap. -/
theorem slot0_rejoin (c : Dev nD) (f g : Scr F) :
    iprop(slot0Pts c fullShare.left f ∗ slot0Pts c fullShare.right g) ⊢ (slot0Pts c fullShare f : sProp 𝕄) := by
  unfold slot0Pts
  iintro ⟨HL, HR⟩
  ihave H := (persistent_entails_right pointsTo_agree) $$ [HL HR]
  · isplitl [HL] <;> iassumption
  icases H with ⟨%hag, HL, HR⟩
  ihave HR' := (Entails.of_eq (pointsTo_congr (g := f) (fun i hi => ((hag i (Finset.mem_inter.mpr ⟨hi, hi⟩)).1).symm))) $$ HR
  iapply (pointsTo_share (PosShare.mem_left_op_right fullShare)).2
  isplitl [HL] <;> iassumption

omit [FloatOps F] in
/-- The two slots, each whole at whatever contents, are the scratch whole at some contents. -/
theorem scr_join (c : Dev nD) (f g : Scr F) :
    iprop(slot0Pts c fullShare f ∗ slot1Pts c g) ⊢ (iprop(∃ h, scrPts c h) : sProp 𝕄) := by
  unfold slot0Pts slot1Pts scrPts
  rw [slot0_set, slot1_set]
  iintro H
  ihave H' := (pointsTo_join slots_disjoint) $$ H
  rw [slots_cover]
  iexists _; iexact H'

/-- The copy of slot 0 into the peer's slot 1, the transfer addressed to `n = peer c` (substituted, not rewritten):
    half of slot 0 travels with it; what lands reads the sender's row of maxima. -/
theorem wp_send_peer (c n : Dev nD) (hn : n = peer c) {hsc : (slot1 : Memref sig (Dev.tc n : Thread nD τ).2.kind .vmem S1x512 .f32).view.ref.isScScratch = false}
    {hsrc : (slot0 : Memref sig .tc .vmem S1x512 .f32).view.WordExact} {hdst : (slot1 : Memref sig .tc .vmem S1x512 .f32).view.WordExact}
    {hsem : DmaTarget.Typed .vmem (.dma recvS.sem) (.remote (Dev.tc n : Thread nD τ) (slot1 : Memref sig .tc .vmem S1x512 .f32) (.dma sendS.sem) hsc)}
    {α : Type} {Q : α → sProp 𝕄} {k : PUnit → Prog (TpuEff nD τ sig (Elt F) Λ₀ .tc) α}
    (fs fn : Scr F) (hfs : rd0 fs = rowmax m ρ c) (W : Waits sig Unit) :
    iprop(cellInv ER (sched m ρ) (K (c, 1)) (sendCell c) ∗ cellInv ER (sched m ρ) (K (peer c, 2)) (recvCell (peer c))
        ∗ slot0Pts c fullShare.right fs ∗ slot1Pts (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma sendS.sem) hsc) (.dma recvS.sem) hsrc hdst hsem) k) Q) := by
  subst hn
  unfold slot0Pts slot1Pts
  exact Rounds.wp_send_pointsTo 𝒱₀ ER (sched m ρ) (c : Thread nD τ) none (c' := (peer c : Thread nD τ))
    (src := (slot0 : Memref sig .tc .vmem S1x512 .f32)) (dst := (slot1 : Memref sig .tc .vmem S1x512 .f32))
    (sS := .dma sendS.sem) (sem := .dma recvS.sem) (q := fullShare.right) (κ₁ := K (c, 1)) (κ₂ := K (peer c, 2))
    (r₁ := 0) (r₂ := 0) (d₁ := ()) (d₂ := ()) (fs := fs) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; unfold sendPay slot0Pts; iintro H; iexists fs; iexact H)
    (by
      rw [payload_recv]; unfold recvPay slot1Pts
      iintro H
      iexists ((slot1 : Memref sig .tc .vmem S1x512 .f32).view.write (Elt F) fn ((slot0 : Memref sig .tc .vmem S1x512 .f32).view.read (Elt F) fs) Finset.univ)
      isplitr
      · ipureintro; rw [landing_read, hfs, peer_peer]
      · iexact H)

set_option maxHeartbeats 800000 in
/-- The body from `bodyPre` to `bodyPost`, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  unfold O₀
  -- the scratch in its two slots; the SIGNAL to the peer's barrier, slot 1 going with it
  ihave Hsp := (scr_split c f0).1 $$ Hscr
  icases Hsp with ⟨Hs0, Hs1⟩
  iapply (Rounds.wp_signal 𝒱₀ ER (sched m ρ) (c : Thread nD τ) none (dst := (peer c : Thread nD τ)) (κ := K (peer c, 0))
      (d := ()) (by rw [duties_bar]; exact Finset.mem_singleton_self _) ((amount_bar m ρ (peer c) ()).trans (by decide)) () (tallyAt (recvCell (peer c)) () N) rfl)
    $$ [HO HtBP Hs1]
  · isplitr; · iexact HIbarP
    isplitl [HO]; · iexact HO
    isplitl [HtBP]; · iexact HtBP
    isplitl [Hs1]
    · rw [payload_bar]; unfold barPay; rw [peer_peer]
      isplitl [Hs1]; · iexists f0; iexact Hs1
      iexact HrV
    · iexact HrBP
  iintro HO
  -- the block of `x`; slot 0 read (the value is not used) and then stored with the block's column maxima
  iapply (wp_load 𝒱₀ (c : Thread nD τ) none Set.univ (m := xM) (Finset.subset_univ _)) $$ Hx; iintro Hx
  rw [read_x]
  unfold slot0Pts
  iapply (wp_load 𝒱₀ (c : Thread nD τ) none Set.univ (m := cM) (r := r00.toLoadRect) load0_sub) $$ Hs0; iintro Hs0
  iapply (wp_store 𝒱₀ (c : Thread nD τ) none Set.univ (m := cM) (r := r00) (Mk := Finset.univ) store0_sub) $$ Hs0; iintro Hs0
  -- the WAIT on its own barrier, owing the peer's receive credit: the peer's slot 1 comes with it
  iapply (Rounds.wp_wait_rest_token 𝒱₀ ER (sched m ρ) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HscrN⟩, #HrVP'⟩
  -- slot 0 in two halves: one travels with the COPY into the peer's slot 1, one stays for the load
  ihave Hh := (pointsTo_share (PosShare.mem_left_op_right fullShare)).1 $$ Hs0
  icases Hh with ⟨Hs0L, Hs0R⟩
  iapply (wp_send_peer m ρ K c _ (dev2_eq c) _ fn (store_read f0 (k0_pay2 (xstg m ρ c)))
      (insert (SemLoc.reg barS, ()) W)) $$ [Hs0R HscrN HO HtS HtVP]
  · isplitr; · iexact HIsnd
    isplitr; · iexact HIrcvP
    isplitl [Hs0R]; · unfold slot0Pts; iexact Hs0R
    isplitl [HscrN]; · iexact HscrN
    isplitl [HO]; · iexact HO
    isplitl [HtS]; · iexact HtS
    isplitr; · iexact HrS
    isplitl [HtVP]; · iexact HtVP
    iexact HrVP
  iintro ⟨HcS, HO⟩
  -- the wait on its RECEIVE cell: slot 1 back, reading the peer's row of maxima
  iapply (Rounds.wp_wait_rest_token 𝒱₀ ER (sched m ρ) (c : Thread nD τ) none (κ := K (c, 2))
      (wpE_waitDma2_eq 𝒱₀ (c : Thread nD τ) none Set.univ) (Set.mem_univ _) () (O := 0)
      (W := insert (SemLoc.reg barS, ()) W) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hrp := (Entails.of_eq (rest_recv m ρ c)) $$ Hpay
  unfold recvPay
  icases Hrp with ⟨%f2, %hf2, Hs1⟩
  -- the loads of the two slots and the store of their elementwise maximum
  iapply (wp_load 𝒱₀ (c : Thread nD τ) none Set.univ (m := cM) (r := r00.toLoadRect) load0_sub) $$ Hs0L; iintro Hs0L
  unfold slot1Pts
  iapply (wp_load 𝒱₀ (c : Thread nD τ) none Set.univ (m := cM) (r := r10.toLoadRect) load1_sub) $$ Hs1; iintro Hs1
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out]
  have e0 : (cM : Memref sig .tc .vmem S2x1x512 .f32).view.readAt (Elt F) r00.toLoadRect
      (((cM : Memref sig .tc .vmem S2x1x512 .f32).access r00 : View sig .tc _ _ _).write (Elt F) f0 (k0_pay2 (xstg m ρ c)) Finset.univ)
      = rowmax m ρ c := store_read f0 _
  have e1 : (cM : Memref sig .tc .vmem S2x1x512 .f32).view.readAt (Elt F) r10.toLoadRect f2 = rowmax m ρ (peer c) := hf2
  rw [e0, e1]
  -- the wait on its SEND cell: the travelling half of slot 0 comes back
  iapply (Rounds.wp_wait_rest_token 𝒱₀ ER (sched m ρ) (c : Thread nD τ) none (κ := K (c, 1))
      (wpE_waitDma2_eq 𝒱₀ (c : Thread nD τ) none Set.univ) (Set.mem_univ _) () (O := 0)
      (W := insert (SemLoc.dma recvS.sem, ()) (insert (SemLoc.reg barS, ()) W)) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hsp := (Entails.of_eq (rest_send m ρ c)) $$ Hpay
  unfold sendPay
  icases Hsp with ⟨%f3, Hs0R⟩
  -- the scratch whole again
  ihave Hs0 := (slot0_rejoin c _ f3) $$ [Hs0L Hs0R]
  · isplitl [Hs0L]; · unfold slot0Pts; iexact Hs0L
    iexact Hs0R
  ihave Hscr := (scr_join c _ f2) $$ [Hs0 Hs1]
  · isplitl [Hs0]; · iexact Hs0
    unfold slot1Pts; iexact Hs1
  -- the two own cells close: their counters at zero are the core's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  rw [wp_ret]; imodintro
  iapply Hk
  unfold bodyPost Φ₁ Dat.owesAt Pipeline.owesWithin
  rw [show (dats m ρ 0 c).owed t₀.succ = 0 from rfl]
  isplitl [Hscr HzS HzV]
  · isplitl [Hscr]; · iexact Hscr
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

end Body

end Cert.KernelIdeal.Hand

end
-- ==== Proof.KernelIdeal.Launch.lean ====
/-
  The launch of the exchange on the four devices, at any float instance: from a memory with every semaphore at zero,
  the exchange's ghost state is made once for all devices (each device's three cells opened at round 0, the duty tokens
  dealt to the devices that pay them: a barrier's and a receive cell's token to the peer, a send cell's to its owner),
  each device is given credit for what the others owe its cells (one barrier unit and one copy's credit, both from its
  peer), and the body's proof on every device gives the run: it terminates on every fair schedule, nothing faults, and
  each device's arrays end at the contents the proof data names.
-/
import proofs.«900928_g7700000000000929_dist_max_ax0_xy_m1024_n512_v7x_xy2x2_bf16_1_alg».proof.Proof.KernelIdeal.Body
import proofs.«900928_g7700000000000929_dist_max_ax0_xy_m1024_n512_v7x_xy2x2_bf16_1_alg».proof.Proof.Gen.KernelIdeal.Points

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation, in the library's form -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exCells : Finset (GSem nD τ sig) := Finset.univ.map ⟨kcell, kcell_injective⟩

/-- A device's own cells' duty tokens as minted: (device, which cell) — its barrier's, its send's, its receive's. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin3]; rfl
  iintro HX
  imod (Rounds.fund ER (sched m ρ) exCells exToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks (F := F) c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across: a barrier's and a receive cell's token to the peer, the send cell's stays. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_across (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s peer. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold scrPts; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hr⟩, HzS, HzV⟩
  isplitr; · iempintro
  isplitl [HzS HzV]
  · isplitl [HzS] <;> iassumption
  iexists f; unfold scrPts; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's result array at the contents the proof data
    computes and its block of `x` at what it held. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

/-- The block of `x` after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The staged block of `x` is the argument buffer itself: the window is the whole array. -/
theorem xstg_eq (c : Dev nD) : xstg m ρ c = m ((c : Thread nD τ).loc main_arg0) := by
  unfold xstg
  exact Memref.read_access_unit_zero (Elt F) main_arg0 (off := fun a => (win0_0.index (0 : Fin 1) a) * win0_0.size a)
    (funext fun a => Nat.zero_mul _) _ _

/-- The result array after the run holds the elementwise maximum of the device's row of maxima and its peer's: the one
    point writes the whole result back. -/
theorem finalA_out (c : Dev nD) : finalA m ρ c (1 : Fin 2) = outAt m ρ c := by
  unfold finalA
  rw [show cfg0.N = (t₀ : Fin cfg0.N).val + 1 from rfl, Dat.arrAt_succ, if_pos (flush0_1 t₀)]
  exact Memref.write_access_unit_zero_univ (Elt F) main_v1 (off := fun a => (win0_1.index (0 : Fin 1) a) * win0_1.size a)
    (funext fun a => Nat.zero_mul _) _ _ _

end Cert.KernelIdeal.Hand

end
-- ==== Proof.Value.lean ====
/-
  The value of the column maximum on the 2 × 2 mesh.

  Device `c` holds block (c / 2, c % 2) of a whole array `X` of 2048 rows and 1024 columns. It takes the maximum of
  every column of its block, from an initial value `b`, and ends with the elementwise maximum of its own row of maxima
  and that of its peer, the device in the other row of the same column. The two blocks are the two row halves of the
  same 512 columns of `X`, so at column `q` the result is
      max (max b (rows 0 … 1023 of the column)) (max b (rows 1024 … 2047 of the column)),
  in one order or the other, which is the maximum, from `b`, of all 2048 rows of column 512 · (c % 2) + q of `X`:
  the one-device reduction at that column, that is, block (·, c % 2) of its result. Only that `max` is commutative,
  associative and idempotent is used; the initial value is the same word on both sides and its value is never needed.
-/
import proofs.«900928_g7700000000000929_dist_max_ax0_xy_m1024_n512_v7x_xy2x2_bf16_1_alg».proof.Proof.KernelIdeal.Protocol
import proofs.«900928_g7700000000000929_dist_max_ax0_xy_m1024_n512_v7x_xy2x2_bf16_1_alg».proof.Proof.Gen.ReferenceIdeal.Read
import Idealize.ShloMosaic.Lib.Layout
import Idealize.ShloMosaic.PureOps.Ideal.Laws
import Idealize.ShloMosaic.Lib.ValueIdx
import Idealize.ShloMosaic.Lib.Pipeline.Value

noncomputable section

namespace Cert.Value

open Idealize.ShloMosaic Idealize.ShloMosaic.ValueIdx Idealize.SL.Sem

/-! ## A maximum over two halves -/

/-- Folding `max` from `b` over an index range of `m + m` points is the `max` of the two folds, each from `b`, over
    its lower and its upper half: every bound of one side bounds the other (`b` twice is `b` once: idempotence). -/
theorem fold_max_halves {α : Type} [LinearOrder α] {m N : ℕ} (b : α) (f : Fin N → α)
    (lo hi : Fin m → Fin N) (hlo : ∀ k, (lo k).val = k.val) (hhi : ∀ k, (hi k).val = m + k.val) (hN : N = m + m) :
    max ((Finset.univ : Finset (Fin m)).fold max b (f ∘ lo)) ((Finset.univ : Finset (Fin m)).fold max b (f ∘ hi))
      = (Finset.univ : Finset (Fin N)).fold max b f := by
  refine eq_of_forall_ge_iff fun c => ?_
  rw [max_le_iff, Finset.fold_max_le, Finset.fold_max_le, Finset.fold_max_le]
  constructor
  · rintro ⟨⟨hb, h1⟩, -, h2⟩
    refine ⟨hb, fun i _ => ?_⟩
    by_cases hi' : i.val < m
    · have e : i = lo ⟨i.val, hi'⟩ := Fin.ext (hlo ⟨i.val, hi'⟩).symm
      rw [e]; exact h1 _ (Finset.mem_univ _)
    · have hlt : i.val - m < m := by have := i.isLt; omega
      have e : i = hi ⟨i.val - m, hlt⟩ := Fin.ext (by rw [hhi]; show i.val = m + (i.val - m); omega)
      rw [e]; exact h2 _ (Finset.mem_univ _)
  · rintro ⟨hb, h⟩
    exact ⟨⟨hb, fun k _ => h _ (Finset.mem_univ _)⟩, hb, fun k _ => h _ (Finset.mem_univ _)⟩

/-! ## The kernel's two payloads at an index -/

/-- The value both reductions start from. -/
abbrev init : EReal := FloatOps.ofBits (F := Ideal) .f32 0xFF800000#32

/-- A device's row of maxima at column `q`: the fold of `max`, from the initial value, down column `q` of its block. -/
theorem pay2_apply (v : Vec Ideal Cert.KernelIdeal.S1024x512 .f32) (q : Fin 512) :
    Cert.KernelIdeal.Gen.k0_pay2 (F := Ideal) v (ix3 (0 : Fin 1) (0 : Fin 1) q)
      = (Finset.univ : Finset (Fin 1024)).fold max init (fun k => v (ix2 k q)) := by
  unfold Cert.KernelIdeal.Gen.k0_pay2
  -- the two casts that only add unit axes: (0, 0, q) is (0, q) is q
  refine (shapeCast_apply _ _ (ix3 (0 : Fin 1) (0 : Fin 1) q) (ix2 (0 : Fin 1) q) (by
    rw [Shape.rowMajor_val_two, Shape.rowMajor_val_three]; rfl)).trans ?_
  refine (shapeCast_apply _ _ (ix2 (0 : Fin 1) q) (ix1 q) (by
    rw [Shape.rowMajor_val_one, Shape.rowMajor_val_two]; show q.val = 0 * 512 + q.val; omega)).trans ?_
  -- the cast to the same shape changes nothing
  rw [shapeCast_self]
  -- the reduction over the rows, as a fold over the row coordinate
  refine (Ideal.multiReduction_maximumf_single v _ _ _ _ (ix1 q)).trans ?_
  -- the index over `q` with row coordinate `k` inserted is (k, q)
  refine congrArg (fun g => (Finset.univ : Finset (Fin 1024)).fold max init g)
    (funext fun k => congrArg v (funext fun c => ?_))
  match c with
  | ⟨0, _⟩ => rfl
  | ⟨1, _⟩ => rfl

/-- The stored row at column `q`: the larger of the two rows of maxima there. -/
theorem pay1_apply (a b : Vec Ideal Cert.KernelIdeal.S1x1x512 .f32) (q : Fin 512) :
    Cert.KernelIdeal.Gen.k0_pay1 (F := Ideal) a b (ix2 (0 : Fin 1) q)
      = max (a (ix3 (0 : Fin 1) (0 : Fin 1) q)) (b (ix3 (0 : Fin 1) (0 : Fin 1) q)) := by
  unfold Cert.KernelIdeal.Gen.k0_pay1
  rw [maximumf_apply]
  congr 1 <;>
  exact shapeCast_apply _ _ (ix2 (0 : Fin 1) q) (ix3 (0 : Fin 1) (0 : Fin 1) q) (by
    rw [Shape.rowMajor_val_two, Shape.rowMajor_val_three]; rfl)

/-! ## The reference at an index -/

/-- The one-device result at column `j`: the fold of `max`, from the same initial value, down all of column `j`. -/
theorem ref_apply (X : (⟨Cert.ReferenceIdeal.S2048x1024, .f32⟩ : BufTy).Contents (Elt Ideal)) (j : Fin 1024) :
    Cert.ReferenceIdeal.Read.val_main_v1 (F := Ideal) X (ix2 (0 : Fin 1) j)
      = (Finset.univ : Finset (Fin 2048)).fold max init (fun k => X (ix2 k j)) := by
  rw [Cert.ReferenceIdeal.Read.val_main_v1_apply]
  unfold Cert.ReferenceIdeal.Read.val_main_v0
  have h : Cert.ReferenceIdeal.S2048x1024.Reduces [0] Cert.ReferenceIdeal.S1024 := by decide
  refine (Host.reduce_eq_fold_single (FloatOps.maximumf (F := Ideal) (φ := .f32)) X _ _ h _ _).trans ?_
  -- the index over `j` with row coordinate `k` inserted is (k, j)
  refine congrArg (fun g => (Finset.univ : Finset (Fin 2048)).fold max init g)
    (funext fun k => congrArg X (funext fun c => ?_))
  match c with
  | ⟨0, _⟩ => rfl
  | ⟨1, _⟩ => rfl

/-! ## The blocks at an index -/

/-- On the 2 × 2 mesh a dimension cut along mesh axis 0 gives device `c` block `c / 2`, one cut along mesh axis 1
    block `c % 2`. -/
theorem meshLin_row (c : Fin 4) : Layout.meshLin [2, 2] c.val [0] = c.val / 2 := by revert c; decide
theorem meshLin_col (c : Fin 4) : Layout.meshLin [2, 2] c.val [1] = c.val % 2 := by revert c; decide

/-- Device `c`'s block of the argument at (p, q) is the whole array at (1024 · (c / 2) + p, 512 · (c % 2) + q). -/
theorem argBlock_apply (X : (⟨Cert.ReferenceIdeal.S2048x1024, .f32⟩ : BufTy).Contents (Elt Ideal))
    (c : Dev Cert.KernelIdeal.nD) (p : Fin 1024) (q : Fin 512) :
    (Layout.blockN ⟨2, ![1024, 512]⟩ ⟨2, ![2048, 1024]⟩ (Layout.meshBlock [2, 2] ![[0], [1]] c) X) (ix2 p q)
      = X (ix2 (⟨c.val / 2 * 1024 + p.val, by have : c.val < 4 := c.isLt; have := p.isLt; omega⟩ : Fin 2048)
            (⟨c.val % 2 * 512 + q.val, by have := q.isLt; omega⟩ : Fin 1024)) := by
  refine congrArg X (funext fun b => Fin.ext ?_)
  match b with
  | ⟨0, _⟩ => exact congrArg (· * 1024 + p.val) (meshLin_row c)
  | ⟨1, _⟩ => exact congrArg (· * 512 + q.val) (meshLin_col c)

/-- Device `c`'s block of a one-row result at (0, q) is the whole row at (0, 512 · (c % 2) + q). -/
theorem resBlock_apply (V : (⟨Cert.ReferenceIdeal.S1x1024, .f32⟩ : BufTy).Contents (Elt Ideal))
    (c : Dev Cert.KernelIdeal.nD) (q : Fin 512) :
    (Layout.blockN ⟨2, ![1, 512]⟩ ⟨2, ![1, 1024]⟩ (Layout.meshBlock [2, 2] ![[], [1]] c) V) (ix2 (0 : Fin 1) q)
      = V (ix2 (0 : Fin 1) (⟨c.val % 2 * 512 + q.val, by have := q.isLt; omega⟩ : Fin 1024)) := by
  refine congrArg V (funext fun b => Fin.ext ?_)
  match b with
  | ⟨0, _⟩ => rfl
  | ⟨1, _⟩ => exact congrArg (· * 512 + q.val) (meshLin_col c)

/-! ## The two row halves of a column -/

/-- The maximum, from the initial value, of column `J` of `X` over its row half `r`: rows 1024 · r … 1024 · r + 1023. -/
def halfMax (X : (⟨Cert.ReferenceIdeal.S2048x1024, .f32⟩ : BufTy).Contents (Elt Ideal)) (r : ℕ) (hr : r < 2)
    (J : Fin 1024) : EReal :=
  (Finset.univ : Finset (Fin 1024)).fold max init
    (fun k => X (ix2 (⟨r * 1024 + k.val, by have := k.isLt; omega⟩ : Fin 2048) J))

/-- The two halves of a column, taken in either order, make the whole column. -/
theorem halfMax_max (X : (⟨Cert.ReferenceIdeal.S2048x1024, .f32⟩ : BufTy).Contents (Elt Ideal)) (J J' : Fin 1024)
    (hJ : J'.val = J.val) (r r' : ℕ) (hr : r < 2) (hr' : r' < 2) (h : r + r' = 1) :
    max (halfMax X r hr J) (halfMax X r' hr' J')
      = (Finset.univ : Finset (Fin 2048)).fold max init (fun k => X (ix2 k J)) := by
  obtain rfl : J = J' := Fin.ext hJ.symm
  have key : max (halfMax X 0 (by omega) J) (halfMax X 1 (by omega) J)
      = (Finset.univ : Finset (Fin 2048)).fold max init (fun k => X (ix2 k J)) :=
    fold_max_halves (m := 1024) init (fun k : Fin 2048 => X (ix2 k J))
      (fun k => ⟨0 * 1024 + k.val, by have := k.isLt; omega⟩) (fun k => ⟨1 * 1024 + k.val, by have := k.isLt; omega⟩)
      (fun k => by show 0 * 1024 + k.val = k.val; omega) (fun k => by show 1 * 1024 + k.val = 1024 + k.val; omega) rfl
  obtain ⟨rfl, rfl⟩ | ⟨rfl, rfl⟩ : (r = 0 ∧ r' = 1) ∨ (r = 1 ∧ r' = 0) := by omega
  · exact key
  · exact (max_comm _ _).trans key

/-! ## Each device's result -/

/-- The peer sits in the other row of the mesh and in the same column. -/
theorem peer_row (c : Dev Cert.KernelIdeal.nD) : c.val / 2 + (Cert.KernelIdeal.Hand.peer c).val / 2 = 1 := by
  revert c; decide
theorem peer_col (c : Dev Cert.KernelIdeal.nD) : (Cert.KernelIdeal.Hand.peer c).val % 2 = c.val % 2 := by
  revert c; decide

/-- Device `c`'s row of maxima at column `q`, when it holds its block of `X`: row half `c / 2` of column
    512 · (c % 2) + q of `X`. -/
theorem pay2_block (X : (⟨Cert.ReferenceIdeal.S2048x1024, .f32⟩ : BufTy).Contents (Elt Ideal))
    (c : Dev Cert.KernelIdeal.nD) (q : Fin 512) :
    Cert.KernelIdeal.Gen.k0_pay2 (F := Ideal)
        (Layout.blockN ⟨2, ![1024, 512]⟩ ⟨2, ![2048, 1024]⟩ (Layout.meshBlock [2, 2] ![[0], [1]] c) X)
        (ix3 (0 : Fin 1) (0 : Fin 1) q)
      = halfMax X (c.val / 2) (by have : c.val < 4 := c.isLt; omega)
          (⟨c.val % 2 * 512 + q.val, by have := q.isLt; omega⟩ : Fin 1024) := by
  rw [pay2_apply]
  exact congrArg (fun g => (Finset.univ : Finset (Fin 1024)).fold max init g) (funext fun k => argBlock_apply X c k q)

/-- The result of device `c` at column `q` is the reference's at column 512 · (c % 2) + q. -/
theorem out_apply
    (X : (⟨Cert.ReferenceIdeal.S2048x1024, .f32⟩ : BufTy).Contents (Elt Ideal))
    (x : Dev Cert.KernelIdeal.nD → (⟨Cert.KernelIdeal.S1024x512, .f32⟩ : BufTy).Contents (Elt Ideal))
    (hx : ∀ c, x c = Layout.blockN ⟨2, ![1024, 512]⟩ ⟨2, ![2048, 1024]⟩ (Layout.meshBlock [2, 2] ![[0], [1]] c) X)
    (c : Dev Cert.KernelIdeal.nD) (q : Fin 512) :
    Cert.KernelIdeal.Gen.k0_pay1 (F := Ideal) (Cert.KernelIdeal.Gen.k0_pay2 (F := Ideal) (x c))
          (Cert.KernelIdeal.Gen.k0_pay2 (F := Ideal) (x (Cert.KernelIdeal.Hand.peer c))) (ix2 (0 : Fin 1) q)
      = (Layout.blockN ⟨2, ![1, 512]⟩ ⟨2, ![1, 1024]⟩ (Layout.meshBlock [2, 2] ![[], [1]] c)
            (Cert.ReferenceIdeal.Read.val_main_v1 (F := Ideal) X)) (ix2 (0 : Fin 1) q) := by
  rw [pay1_apply, hx c, hx (Cert.KernelIdeal.Hand.peer c), pay2_block, pay2_block, resBlock_apply, ref_apply]
  -- the peer's column is this device's, its row half the other one
  exact halfMax_max X _ _ (congrArg (· * 512 + q.val) (peer_col c)) _ _ _ _ (peer_row c)

/-- On every device the kernel's stored row — the larger, column by column, of its own row of maxima and its peer's — is
    its block of the one-device column maximum of the whole array. -/
theorem out_eq_block
    (X : (⟨Cert.ReferenceIdeal.S2048x1024, .f32⟩ : BufTy).Contents (Elt Ideal))
    (x : Dev Cert.KernelIdeal.nD → (⟨Cert.KernelIdeal.S1024x512, .f32⟩ : BufTy).Contents (Elt Ideal))
    (hx : ∀ c, x c = Layout.blockN ⟨2, ![1024, 512]⟩ ⟨2, ![2048, 1024]⟩ (Layout.meshBlock [2, 2] ![[0], [1]] c) X)
    (c : Dev Cert.KernelIdeal.nD) :
    Cert.KernelIdeal.Gen.k0_pay1 (F := Ideal) (Cert.KernelIdeal.Gen.k0_pay2 (F := Ideal) (x c))
        (Cert.KernelIdeal.Gen.k0_pay2 (F := Ideal) (x (Cert.KernelIdeal.Hand.peer c)))
      = Layout.blockN ⟨2, ![1, 512]⟩ ⟨2, ![1, 1024]⟩ (Layout.meshBlock [2, 2] ![[], [1]] c)
          (Cert.ReferenceIdeal.Read.val_main_v1 (F := Ideal) X) := by
  funext i
  -- an index of a one-row array is (0, its column)
  have hi : i = ix2 (0 : Fin 1) (i 1) := funext fun b => match b with
    | ⟨0, _⟩ => Fin.ext (by have h : (i 0).val < 1 := (i 0).isLt; show (i 0).val = 0; omega)
    | ⟨1, _⟩ => rfl
  rw [hi]
  exact out_apply X x hx c (i 1)

end Cert.Value

end

/-- info: 'Cert.Value.out_eq_block' depends on axioms: [propext, Classical.choice, Quot.sound] -/
#guard_msgs in #print axioms Cert.Value.out_eq_block
-- ==== Proof.lean ====
/-
  The column maximum of an array cut over a 2 × 2 mesh, against the one-device maximum of the whole array.

  The whole array `x` has 2048 rows and 1024 columns; device `c` holds the block at row block `c / 2`, column block
  `c % 2`. Each device takes the maximum of every column of its block, exchanges that row of maxima with the device in
  the other row of the same column, and keeps the elementwise maximum of the two rows: the maximum of the whole column,
  which is its block (column block `c % 2`) of the one-device result. The three frames: the kernel's run, at the
  word-level and at the ideal instance, is the launch of the exchange (each device's arguments come back unchanged); the
  reference's is its generated run. Nothing was rewritten between the kernel and its idealization. The value: the run
  names each device's result, and a maximum over 2048 rows is the maximum of the maxima over its two halves of 1024
  (the maximum on the extended reals is commutative, associative and idempotent; no finiteness is used).
-/
import proofs.«900928_g7700000000000929_dist_max_ax0_xy_m1024_n512_v7x_xy2x2_bf16_1_alg».proof.Defs
import proofs.«900928_g7700000000000929_dist_max_ax0_xy_m1024_n512_v7x_xy2x2_bf16_1_alg».proof.Proof.Gen.Kernel
import proofs.«900928_g7700000000000929_dist_max_ax0_xy_m1024_n512_v7x_xy2x2_bf16_1_alg».proof.Proof.Gen.Kernel.Skeleton
import proofs.«900928_g7700000000000929_dist_max_ax0_xy_m1024_n512_v7x_xy2x2_bf16_1_alg».proof.Proof.Gen.Kernel.Launch
import proofs.«900928_g7700000000000929_dist_max_ax0_xy_m1024_n512_v7x_xy2x2_bf16_1_alg».proof.Proof.Gen.Kernel.Points
import proofs.«900928_g7700000000000929_dist_max_ax0_xy_m1024_n512_v7x_xy2x2_bf16_1_alg».proof.Proof.Gen.Kernel.Frame
import proofs.«900928_g7700000000000929_dist_max_ax0_xy_m1024_n512_v7x_xy2x2_bf16_1_alg».proof.Proof.Gen.KernelIdeal
import proofs.«900928_g7700000000000929_dist_max_ax0_xy_m1024_n512_v7x_xy2x2_bf16_1_alg».proof.Proof.Gen.KernelIdeal.Skeleton
import proofs.«900928_g7700000000000929_dist_max_ax0_xy_m1024_n512_v7x_xy2x2_bf16_1_alg».proof.Proof.Gen.KernelIdeal.Launch
import proofs.«900928_g7700000000000929_dist_max_ax0_xy_m1024_n512_v7x_xy2x2_bf16_1_alg».proof.Proof.Gen.KernelIdeal.Points
import proofs.«900928_g7700000000000929_dist_max_ax0_xy_m1024_n512_v7x_xy2x2_bf16_1_alg».proof.Proof.Gen.KernelIdeal.Frame
import proofs.«900928_g7700000000000929_dist_max_ax0_xy_m1024_n512_v7x_xy2x2_bf16_1_alg».proof.Proof.Gen.ReferenceIdeal
import proofs.«900928_g7700000000000929_dist_max_ax0_xy_m1024_n512_v7x_xy2x2_bf16_1_alg».proof.Proof.Gen.Pre_finite_inputs_Kernel
import proofs.«900928_g7700000000000929_dist_max_ax0_xy_m1024_n512_v7x_xy2x2_bf16_1_alg».proof.Proof.Gen.Pre_finite_inputs_ReferenceIdeal
import proofs.«900928_g7700000000000929_dist_max_ax0_xy_m1024_n512_v7x_xy2x2_bf16_1_alg».proof.Proof.Gen.ReferenceIdeal.Run
import proofs.«900928_g7700000000000929_dist_max_ax0_xy_m1024_n512_v7x_xy2x2_bf16_1_alg».proof.Proof.Gen.ReferenceIdeal.Read
import proofs.«900928_g7700000000000929_dist_max_ax0_xy_m1024_n512_v7x_xy2x2_bf16_1_alg».proof.Proof.Kernel.Launch
import proofs.«900928_g7700000000000929_dist_max_ax0_xy_m1024_n512_v7x_xy2x2_bf16_1_alg».proof.Proof.KernelIdeal.Launch
import proofs.«900928_g7700000000000929_dist_max_ax0_xy_m1024_n512_v7x_xy2x2_bf16_1_alg».proof.Proof.Value
import Idealize.ShloMosaic.Adequacy
import Idealize.ShloMosaic.Init

noncomputable section

namespace Cert.Proof

open Idealize.ShloMosaic Idealize.ShloMosaic.TcCoe Idealize.SL.Sem

/-- The word-level kernel runs, and every device's block of `x` ends as it began. -/
theorem frame_k : Cert.frame_Kernel := fun m g _ =>
  (θ_run (Cert.Kernel.defs (F := Bits)) _ _).mono
    (fun r h c => (h c (0 : Fin 2)).trans (Cert.Kernel.Hand.finalA_x (F := Bits) m g c))
    (Cert.Kernel.Hand.run_main (F := Bits) m g)

/-- The same of the idealized kernel. -/
theorem frame_ki : Cert.frame_KernelIdeal := fun m g _ =>
  (θ_run (Cert.KernelIdeal.defs (F := Ideal)) _ _).mono
    (fun r h c => (h c (0 : Fin 2)).trans (Cert.KernelIdeal.Hand.finalA_x (F := Ideal) m g c))
    (Cert.KernelIdeal.Hand.run_main (F := Ideal) m g)

/-- The reference runs and leaves `x` as it was: its generated run, the result dropped. -/
theorem frame_ri : Cert.frame_ReferenceIdeal := fun m g _ =>
  (θ_run (Cert.ReferenceIdeal.defs (F := Ideal)) _ _).mono (fun _ h c => (h c).2)
    (Cert.ReferenceIdeal.Value.run (F := Ideal) m g)

/-- From memories where each device holds its block of the reference's `x`: the reference's result is the maximum of
    every column of `x`, and each device's result its block of it — its own 1024 rows and its peer's are the two
    halves of the same 512 columns. -/
theorem algebraic : Cert.algebraic_KernelIdeal_ReferenceIdeal := by
  intro m g m' g' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨?_, ?_⟩)
      (Cert.KernelIdeal.Hand.run_main (F := Ideal) m g)
    · refine (h c (1 : Fin 2)).trans ((Cert.KernelIdeal.Hand.finalA_out (F := Ideal) m g c).trans ?_)
      unfold Cert.KernelIdeal.Hand.outAt Cert.KernelIdeal.Hand.rowmax
      rw [Cert.KernelIdeal.Hand.xstg_eq, Cert.KernelIdeal.Hand.xstg_eq]
      exact Cert.Value.out_eq_block _
        (fun c => m ((c.tc : Thread Cert.KernelIdeal.nD Cert.KernelIdeal.τ).loc Cert.KernelIdeal.main_arg0)) hagree c
    · exact (h c (0 : Fin 2)).trans (Cert.KernelIdeal.Hand.finalA_x (F := Ideal) m g c)
  · refine (θ_run (Cert.ReferenceIdeal.defs (F := Ideal)) _ _).mono (fun r h => ⟨?_, (h 0).2⟩)
      (Cert.ReferenceIdeal.Value.run (F := Ideal) m' g')
    exact (h 0).1.trans (Cert.ReferenceIdeal.Read.val_main_v1_eq _)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
